-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x256 .f32) (main_arg1 : FVec F S16384x256 .f32) (main_arg2 : FVec F S16384 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S16384x256 : Shape := ⟨2, ![16384, 256]⟩
abbrev S16384 : Shape := ⟨1, ![16384]⟩
abbrev S16384x1 : Shape := ⟨2, ![16384, 1]⟩
abbrev S1024x256 : Shape := ⟨2, ![1024, 256]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384, .f32⟩
  | .hbm, ⟨3, _⟩ => ⟨S16384x1, .f32⟩
  | .hbm, ⟨4, _⟩ => ⟨S16384x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384_S16384x1 : S16384.ShapeCasts S16384x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reducesTo_S16384x1_S_d0_1 : S16384x1.ReducesTo [0, 1] S_
  h_S_ : 0 < S_.numel
  reducesTo_S16384_S_d0 : S16384.ReducesTo [0] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .f32 = 32 ∨ (Rect.block (s := S16384x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x256 : Shape := ⟨2, ![16384, 256]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S256x16384 : Shape := ⟨2, ![256, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x256, .f32⟩
  | .hbm, ⟨8, _⟩ => ⟨S_, .f32⟩
  | .hbm, ⟨9, _⟩ => ⟨S16384, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S256x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S1x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x256_S256x16384_1_0 : S16384x256.Transposes [1, 0] S256x16384
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x256_S256x16384_S16384x16384_1_0_0_1_n_n_wf : DotDims.WF S16384x256 S256x16384 S16384x16384 [1] [0] [0] [1] [] []

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf

class Facts : Prop extends Facts₀ where

variable [Facts]
-- ==== Proof.Layout.lean ====
/-
  Two layout operations on a column, read at an index given by coordinates.

  A vector of length `a` cast to an `[a, 1]` column holds, in row `p`, the vector's entry `p` (the row-major
  position of `(p, 0)` in `[a, 1]` is `p`); an `[a, 1]` column broadcast to `[a, b]` holds, at `(p, q)`, the
  column's entry in row `p` (its unit axis is read at `0`, whatever `q`).
-/
import Idealize.ShloMosaic.Lib.Pipeline.Value
import Idealize.ShloMosaic.Lib.ValueIdx

namespace Cert.Layout

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.MinFold.lean ====
/-
  A minimum over 16384 columns taken 1024 columns at a time.

  For a row of values `f : Fin 16384 → β` in a linear order and a starting value `I`, `upTo f I n` is the
  minimum of `I` and the values of the first `n` columns. Nothing is below zero columns, so `upTo f I 0 = I`;
  the columns below `(j + 1) · 1024` are the columns below `j · 1024` together with the 1024 columns of block
  `j`, so the running minimum after block `j` is the minimum of the one before it and the block's own minimum
  (each started from `I`; `min` is idempotent, so a second `I` changes nothing); and all 16384 columns give the
  minimum over the whole row. Each equation is proved through the universal property of a minimum: `z` is below
  a minimum of a family exactly when it is below the start value and below every member.
-/
import Mathlib.Data.Finset.Fold
import Mathlib.Data.Fintype.Basic
import Mathlib.Order.Lattice

namespace Cert.MinFold

variable {β : Type*} [LinearOrder β]

/-- The minimum of `I` and of `f` over the columns below `n`. -/
def upTo (f : Fin 16384 → β) (I : β) (n : ℕ) : β :=
  (Finset.univ.filter fun c : Fin 16384 => c.val < n).fold min I f

/-- Below column zero there is no column: the running minimum is the start value. -/
theorem upTo_zero (f : Fin 16384 → β) (I : β) : upTo f I 0 = I := by
  unfold upTo
  rw [Finset.filter_false_of_mem (fun c _ => Nat.not_lt_zero _), Finset.fold_empty]

/-- Every column is below 16384: the running minimum is the minimum over the whole row. -/
theorem upTo_all (f : Fin 16384 → β) (I : β) : upTo f I 16384 = Finset.univ.fold min I f := by
  unfold upTo
  rw [Finset.filter_true_of_mem (fun c _ => c.isLt)]

/-- Column `q` of block `j`. -/
def col (j : ℕ) (hj : j < 16) (q : Fin 1024) : Fin 16384 := ⟨j * 1024 + q.val, by have := q.isLt; omega⟩

/-- The running minimum after block `j` is the minimum of the one before the block and the block's own. -/
theorem upTo_step (f : Fin 16384 → β) (I : β) (j : ℕ) (hj : j < 16) :
    upTo f I ((j + 1) * 1024)
      = min (upTo f I (j * 1024)) ((Finset.univ : Finset (Fin 1024)).fold min I fun q => f (col j hj q)) := by
  refine eq_of_forall_le_iff fun z => ?_
  unfold upTo
  simp only [Finset.le_fold_min, le_min_iff, Finset.mem_filter, Finset.mem_univ, true_and, forall_true_left]
  constructor
  · rintro ⟨hI, h⟩
    exact ⟨⟨hI, fun c hc => h c (by omega)⟩, hI, fun q => h (col j hj q) (by
      have := q.isLt; show j * 1024 + q.val < (j + 1) * 1024; omega)⟩
  · rintro ⟨⟨hI, h1⟩, -, h2⟩
    refine ⟨hI, fun c hc => ?_⟩
    by_cases hlt : c.val < j * 1024
    · exact h1 c hlt
    · have hq : c.val - j * 1024 < 1024 := by omega
      have e : col j hj ⟨c.val - j * 1024, hq⟩ = c := Fin.ext (by show j * 1024 + (c.val - j * 1024) = c.val; omega)
      have := h2 ⟨c.val - j * 1024, hq⟩
      rwa [e] at this

end Cert.MinFold
-- ==== Proof.Spec.lean ====
/-
  The specification: what both programs compute, as functions of the three argument arrays over the extended reals.

  For `X, Y : [16384, 256]` and `Psi : [16384]`:
    sq X r      = ∑_d X[r, d]²                                   the squared norm of row r
    dot X Y r c = ∑_d X[r, d] · Y[c, d]                          the inner product of row r of X and row c of Y
    cost r c    = (sq X r + sq Y c − 2 · dot X Y r c) − Psi[c]    the squared distance less the dual potential
    rowMin r    = min (+∞, cost r 0, …, cost r 16383)
  The first result is the mean of `rowMin` over the 16384 rows and the second the mean of `Psi`, both as
  "zero plus the sum, divided by 16384.0". The constants 2.0, +∞, 0.0 and 16384.0 stay the bit patterns both
  programs spell them with: the two sides carry the same patterns, so none is ever evaluated.
-/
import Idealize.ShloMosaic.PureOps.Ideal
import Idealize.ShloMosaic.Lib.ValueIdx
import proofs.«164801_j15375982920139_1_alg».proof.Proof.MinFold

noncomputable section

namespace Cert.Spec

open Idealize.ShloMosaic Idealize.ShloMosaic.ValueIdx

/-- A `[16384, 256]` array and a `[16384]` array of extended reals. -/
abbrev Mat : Type := (⟨2, ![16384, 256]⟩ : Shape).Idx → EReal
abbrev Row : Type := (⟨1, ![16384]⟩ : Shape).Idx → EReal

/-- The patterns of 2.0, +∞, 0.0 and 16384.0, at the ideal values. -/
def two : EReal := Ideal.ofBits .f32 0x40000000#32
def top : EReal := Ideal.ofBits .f32 0x7F800000#32
def zero : EReal := Ideal.ofBits .f32 0x00000000#32
def count : EReal := Ideal.ofBits .f32 0x46800000#32

/-- The squared norm of row `r`. -/
def sq (X : Mat) (r : Fin 16384) : EReal := ∑ d : Fin 256, X (ix2 r d) * X (ix2 r d)

/-- The inner product of row `r` of `X` with row `c` of `Y`. -/
def dot (X Y : Mat) (r c : Fin 16384) : EReal := ∑ d : Fin 256, X (ix2 r d) * Y (ix2 c d)

/-- The squared distance of row `r` of `X` to row `c` of `Y`, less `Psi` at `c`. -/
def cost (X Y : Mat) (Psi : Row) (r c : Fin 16384) : EReal := sq X r + sq Y c - two * dot X Y r c - Psi (ix1 c)

/-- Its minimum over all columns, from +∞. -/
def rowMin (X Y : Mat) (Psi : Row) (r : Fin 16384) : EReal := Finset.univ.fold min top (cost X Y Psi r)

/-- The row minima as the `[16384, 1]` column the kernel writes. -/
def column (X Y : Mat) (Psi : Row) : (⟨2, ![16384, 1]⟩ : Shape).Idx → EReal := fun j => rowMin X Y Psi (j 0)

/-- The first result: the mean of the row minima, as zero plus their sum, divided by 16384.0. -/
def meanMin (X Y : Mat) (Psi : Row) : EReal := Ideal.div (zero + ∑ r : Fin 16384, rowMin X Y Psi r) count

/-- The minimum over all columns is the running minimum after the last of the sixteen column blocks. -/
theorem rowMin_eq_upTo (X Y : Mat) (Psi : Row) (r : Fin 16384) :
    rowMin X Y Psi r = MinFold.upTo (cost X Y Psi r) top 16384 := (MinFold.upTo_all _ _).symm

end Cert.Spec

end
-- ==== Proof.Payload.lean ====
/-
  What the kernel body stores into its accumulator, read at a row, over the extended reals.

  With `x` the block of 1024 rows of the first array, `y` the block of 1024 rows of the second, `s` the matching
  1024 entries of the third (as a column) and `acc` the accumulator's contents before the store, the stored
  column holds in row `p`
      min (acc p) (min (+∞, c p 0, …, c p 1023)),   c p q = (|x_p|² + |y_q|² − 2 · ⟨x_p, y_q⟩) − s q.
  The squared norms are lane sums of the squared blocks, re-laid as a column (and, for `y`, transposed to a row)
  and broadcast over the 1024 × 1024 tile; the inner products are the matrix product of the two blocks, whose
  narrowing to bf16 is the identity over the extended reals; the row minimum is a lane reduction from +∞. The
  reset value the body stores at the first column block is +∞ in every row.
-/
import proofs.«164801_j15375982920139_1_alg».proof.Proof.Gen.KernelIdeal.Skeleton
import proofs.«164801_j15375982920139_1_alg».proof.Proof.Layout
import proofs.«164801_j15375982920139_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open Cert.Spec (two top)

/-- The squared norm of row `p` of a block. -/
def bsq (x : Vec Ideal S1024x256 .f32) (p : Fin 1024) : EReal := ∑ d : Fin 256, x (ix2 p d) * x (ix2 p d)

/-- The inner product of row `p` of one block with row `q` of another. -/
def bdot (x y : Vec Ideal S1024x256 .f32) (p q : Fin 1024) : EReal := ∑ d : Fin 256, x (ix2 p d) * y (ix2 q d)

/-- The tile's entry at `(p, q)`. -/
def bcost (x y : Vec Ideal S1024x256 .f32) (s : Vec Ideal S1024x1 .f32) (p q : Fin 1024) : EReal :=
  bsq x p + bsq y q - two * bdot x y p q - s (ix2 q (0 : Fin 1))

/-- Row `p` of a block with the lane coordinate `k` put back is the entry `(p, k)`. -/
theorem lift_row (p : Fin 1024) (k : Fin 256) : reduces_S1024x256_S1024.lift (ix1 p) k = ix2 p k :=
  funext fun a => Fin.ext (by match a with | ⟨0, _⟩ => rfl | ⟨1, _⟩ => rfl)

/-- The same in the 1024 × 1024 tile. -/
theorem lift_tile (p q : Fin 1024) : reduces_S1024x1024_S1024.lift (ix1 p) q = ix2 p q :=
  funext fun a => Fin.ext (by match a with | ⟨0, _⟩ => rfl | ⟨1, _⟩ => rfl)

/-- The lane sum of a squared block, as a column: row `p` holds the squared norm of the block's row `p`. -/
theorem sqcol_apply (x : Vec Ideal S1024x256 .f32) (p : Fin 1024) (u : Fin 1) :
    shapeCast S1024x1 (multiReduction (F := Ideal) .add [1] S1024 (mulf x x) 0x00000000#32 reduces_S1024x256_S1024 (.inl rfl) rfl)
      shapeCasts_S1024_S1024x1 (ix2 p u) = bsq x p := by
  rw [Layout.shapeCast_a_a1_apply]
  unfold bsq
  refine (Ideal.multiReduction_add_single (mulf x x) 0x00000000#32 reduces_S1024x256_S1024 (.inl rfl) rfl (ix1 p)).trans
    (Finset.sum_congr rfl fun k _ => ?_)
  exact congrArg (mulf (F := Ideal) x x : FVec Ideal S1024x256 .f32) (lift_row p k)

/-- The contraction's four axis facts: the product's entry `(p, q)` reads row `p` of the left block and row `q` of
    the right one, both at the contraction's coordinate. -/
theorem lhs_dot_0 (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_dot_1 (i : S1024x1024.Idx) (k : dot_S1024x256_S1024x256_S1024x1024_1_1_0_0_n_n.contr.Idx) :
    (dot_S1024x256_S1024x256_S1024x1024_1_1_0_0_n_n.lhsIdx i k 1).val = (k ⟨0, by decide⟩).val :=
  dot_S1024x256_S1024x256_S1024x1024_1_1_0_0_n_n.lhsIdx_val_of_single rfl i k
theorem rhs_dot_0 (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_dot_1 (i : S1024x1024.Idx) (k : dot_S1024x256_S1024x256_S1024x1024_1_1_0_0_n_n.contr.Idx) :
    (dot_S1024x256_S1024x256_S1024x1024_1_1_0_0_n_n.rhsIdx i k 1).val = (k ⟨0, by decide⟩).val :=
  dot_S1024x256_S1024x256_S1024x1024_1_1_0_0_n_n.rhsIdx_val_of_single rfl i k

/-- The matrix product of the two blocks (narrowed to bf16, the identity here) into the zero tile: at `(p, q)` the
    inner product of row `p` of the left block and row `q` of the right one. -/
theorem mm_apply (x y : Vec Ideal S1024x256 .f32) (p q : Fin 1024) :
    matmul (F := Ideal) dot_S1024x256_S1024x256_S1024x1024_1_1_0_0_n_n none (truncf .bf16 x bitsLt_bf16_f32) (truncf .bf16 y bitsLt_bf16_f32)
      (constant S1024x1024 .f32 0x00000000#32) (ix2 p q) = bdot x y p q := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_dot_0 _ _
    | ⟨1, _⟩ => exact (rhs_dot_1 _ _).trans hk)
  rw [el, er]
  rfl

/-- The tile the body reduces: at `(p, q)` the squared distance of the blocks' rows less the third block's entry. -/
def tile (x y : Vec Ideal S1024x256 .f32) (s : Vec Ideal S1024x1 .f32) : FVec Ideal S1024x1024 .f32 :=
  subf (subf (addf
      (broadcastTo S1024x1024 (shapeCast S1024x1 (multiReduction (F := Ideal) .add [1] S1024 (mulf x x) 0x00000000#32 reduces_S1024x256_S1024 (.inl rfl) rfl) shapeCasts_S1024_S1024x1) broadcasts_S1024x1_S1024x1024)
      (broadcastTo S1024x1024 (transpose S1x1024 [1, 0] (shapeCast S1024x1 (multiReduction (F := Ideal) .add [1] S1024 (mulf y y) 0x00000000#32 reduces_S1024x256_S1024 (.inl rfl) rfl) shapeCasts_S1024_S1024x1) transposes_S1024x1_p1_0_S1x1024) broadcasts_S1x1024_S1024x1024))
    (mulf (broadcast S1024x1024 (Scalar.ofBits (F := Ideal) .f32 0x40000000#32))
      (matmul (F := Ideal) dot_S1024x256_S1024x256_S1024x1024_1_1_0_0_n_n none (truncf .bf16 x bitsLt_bf16_f32) (truncf .bf16 y bitsLt_bf16_f32) (constant S1024x1024 .f32 0x00000000#32))))
    (broadcastTo S1024x1024 (transpose S1x1024 [1, 0] (shapeCast S1024x1 s shapeCasts_S1024x1_S1024x1) transposes_S1024x1_p1_0_S1x1024) broadcasts_S1x1024_S1024x1024)

theorem tile_apply (x y : Vec Ideal S1024x256 .f32) (s : Vec Ideal S1024x1 .f32) (p q : Fin 1024) :
    tile x y s (ix2 p q) = bcost x y s p q := by
  unfold tile bcost
  rw [subf_apply, subf_apply, addf_apply, mulf_apply, broadcast_apply, mm_apply,
    Layout.broadcastTo_a1_ab_apply, sqcol_apply,
    broadcastTo_1b_ab_apply, transpose_ix2_apply, sqcol_apply,
    broadcastTo_1b_ab_apply, transpose_ix2_apply, shapeCast_self]
  rfl

/-- The stored column at row `p`: the accumulator's entry against the tile's row minimum from +∞. -/
theorem pay2_apply (x y : Vec Ideal S1024x256 .f32) (s acc : Vec Ideal S1024x1 .f32) (p : Fin 1024) :
    k0_pay2 (F := Ideal) x y s acc (ix2 p (0 : Fin 1))
      = min (acc (ix2 p (0 : Fin 1))) ((Finset.univ : Finset (Fin 1024)).fold min top fun q => bcost x y s p q) := by
  have e : k0_pay2 (F := Ideal) x y s acc
      = shapeCast S1024x1 (minimumf acc (shapeCast S1024x1 (multiReduction (F := Ideal) .minimumf [1] S1024 (tile x y s) 0x7F800000#32 reduces_S1024x1024_S1024 (.inl rfl) rfl) shapeCasts_S1024_S1024x1)) shapeCasts_S1024x1_S1024x1 := rfl
  rw [e, shapeCast_self, minimumf_apply, Layout.shapeCast_a_a1_apply]
  refine congrArg (min _) ?_
  refine (multiReduction_minimumf_eq_fold (tile x y s) 0x7F800000#32 reduces_S1024x1024_S1024 (.inl rfl) rfl (ix1 p)).trans ?_
  refine (reduces_S1024x1024_S1024.fold_filter_drop_single _ _ (tile x y s) (ix1 p)).trans ?_
  show Finset.fold min top _ _ = _
  refine Finset.fold_congr fun q _ => ?_
  exact (congrArg (tile x y s) (lift_tile p q)).trans (tile_apply x y s p q)

/-- The reset column is +∞ in every row. -/
theorem pay1_apply (j : S1024x1.Idx) : k0_pay1 (F := Ideal) j = top := by
  have e : k0_pay1 (F := Ideal) = shapeCast S1024x1 (broadcast S1024x1 (Scalar.ofBits (F := Ideal) .f32 0x7F800000#32)) shapeCasts_S1024x1_S1024x1 := rfl
  rw [e, shapeCast_self]
  rfl

end Cert.KernelIdeal.Payload

end
-- ==== Proof.Blocks.lean ====
/-
  The input blocks at a grid point, read in the argument arrays.

  The grid is 16 × 16, row blocks outermost: point `t` handles row block `t / 16` and column block `t % 16`.
  There the first window holds rows `(t / 16) · 1024 + p` of the first array, the second window rows
  `(t % 16) · 1024 + q` of the second array, and the third window the same rows of the third array reshaped by the
  host to a `[16384, 1]` column, whose row `r` is the array's entry `r`. So the tile the body reduces at point `t`
  holds, at `(p, q)`, the specification's cost of global row `(t / 16) · 1024 + p` and global column
  `(t % 16) · 1024 + q`.
-/
import proofs.«164801_j15375982920139_1_alg».proof.Proof.Gen.KernelIdeal.Frame
import proofs.«164801_j15375982920139_1_alg».proof.Proof.Payload
import proofs.«164801_j15375982920139_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen
open Cert.KernelIdeal.Payload (bsq bdot bcost)

variable (m : (ℓ : Loc nD τ sig) → Buf (Elt Ideal) ℓ)

/-- The three argument arrays as launched, on core `c`. -/
abbrev X (c : Dev nD) : Cert.Spec.Mat := m ((c : Thread nD τ).loc main_arg0)
abbrev Y (c : Dev nD) : Cert.Spec.Mat := m ((c : Thread nD τ).loc main_arg1)
abbrev Psi (c : Dev nD) : Cert.Spec.Row := m ((c : Thread nD τ).loc main_arg2)

/-- The three input blocks at point `t`, at their literal types. -/
abbrev xblk (c : Dev nD) (t : Fin cfg0.N) : Vec Ideal S1024x256 .f32 := iblk m c 0 t
abbrev yblk (c : Dev nD) (t : Fin cfg0.N) : Vec Ideal S1024x256 .f32 := iblk m c 1 t
abbrev pblk (c : Dev nD) (t : Fin cfg0.N) : Vec Ideal S1024x1 .f32 := iblk m c 2 t

/-- The grid has 256 points. -/
theorem N256 : cfg0.N = 256 := N_0

/-- The windows' block indices at point `t`: row block `t / 16` for the first array and the result, column block
    `t % 16` for the second and third arrays; the second axis is never tiled. Decided over the grid. -/
theorem idx_facts : ∀ t : Fin cfg0.N, win0_0.index t (0 : Fin 2) = t.val / 16 ∧ win0_0.index t (1 : Fin 2) = 0
      ∧ win0_1.index t (0 : Fin 2) = t.val % 16 ∧ win0_1.index t (1 : Fin 2) = 0
      ∧ win0_2.index t (0 : Fin 2) = t.val % 16 ∧ win0_2.index t (1 : Fin 2) = 0
      ∧ win0_3.index t (0 : Fin 2) = t.val / 16 ∧ win0_3.index t (1 : Fin 2) = 0 :=
  (by decide +kernel : ∀ t : Fin grid0.N, win0_0.index t (0 : Fin 2) = t.val / 16 ∧ win0_0.index t (1 : Fin 2) = 0
      ∧ win0_1.index t (0 : Fin 2) = t.val % 16 ∧ win0_1.index t (1 : Fin 2) = 0
      ∧ win0_2.index t (0 : Fin 2) = t.val % 16 ∧ win0_2.index t (1 : Fin 2) = 0
      ∧ win0_3.index t (0 : Fin 2) = t.val / 16 ∧ win0_3.index t (1 : Fin 2) = 0)

/-- Global row `(n / 16) · 1024 + p`: row `p` of the row block point `n` handles. -/
def rowOf (n : ℕ) (hn : n < 256) (p : Fin 1024) : Fin 16384 :=
  ⟨n / 16 * 1024 + p.val, by have := p.isLt; omega⟩

/-- Global column `(n % 16) · 1024 + q`: column `q` of the column block point `n` handles. -/
abbrev colOf (n : ℕ) (q : Fin 1024) : Fin 16384 := MinFold.col (n % 16) (Nat.mod_lt _ (by decide)) q

theorem lt256 (t : Fin cfg0.N) : t.val < 256 := lt_of_lt_of_eq t.isLt N256

/-- The first window's block at point `t` holds the first array's rows of that row block. -/
theorem xblk_apply (c : Dev nD) (t : Fin cfg0.N) (p : Fin 1024) (d : Fin 256) :
    xblk m c t (ix2 p d) = X m c (ix2 (rowOf t.val (lt256 t) p) d) := by
  show (iblk m c 0 t : Vec Ideal S1024x256 .f32) (ix2 p d) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * p.val = t.val / 16 * 1024 + p.val; rw [(idx_facts t).1]; omega
  | ⟨1, _⟩ => show win0_0.index t 1 * 256 + 1 * d.val = d.val; rw [(idx_facts t).2.1]; omega

/-- The second window's block holds the second array's rows of that column block. -/
theorem yblk_apply (c : Dev nD) (t : Fin cfg0.N) (q : Fin 1024) (d : Fin 256) :
    yblk m c t (ix2 q d) = Y m c (ix2 (colOf t.val q) d) := by
  show (iblk m c 1 t : Vec Ideal S1024x256 .f32) (ix2 q d) = _
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1024 + 1 * q.val = t.val % 16 * 1024 + q.val; rw [(idx_facts t).2.2.1]; omega
  | ⟨1, _⟩ => show win0_1.index t 1 * 256 + 1 * d.val = d.val; rw [(idx_facts t).2.2.2.1]; omega

/-- The third window's array is the host's reshape of the third argument to a column. -/
theorem parr_eq (c : Dev nD) :
    (V m c main_v0 : Vec Ideal S16384x1 .f32) = shapeCast S16384x1 (Psi m c) shapeCasts_S16384_S16384x1 := by
  show StableHlo.after hostOps0 (fun b => m (c, b)) (Proc.devRef .tc main_v0) = _
  after_results
  rfl

/-- The third window's block holds the third array's entries of that column block. -/
theorem pblk_apply (c : Dev nD) (t : Fin cfg0.N) (q : Fin 1024) :
    pblk m c t (ix2 q (0 : Fin 1)) = Psi m c (ix1 (colOf t.val q)) := by
  show (iblk m c 2 t : Vec Ideal S1024x1 .f32) (ix2 q (0 : Fin 1)) = _
  unfold iblk
  rw [View.read_apply]
  show (V m c main_v0 : Vec Ideal S16384x1 .f32) _ = _
  rw [parr_eq]
  refine (congrArg (shapeCast S16384x1 (Psi m c) shapeCasts_S16384_S16384x1)
    (show _ = ix2 (colOf t.val q) (0 : Fin 1) from funext fun a => Fin.ext ?_)).trans
    (Cert.Layout.shapeCast_a_a1_apply (Psi m c) shapeCasts_S16384_S16384x1 (colOf t.val q) 0)
  match a with
  | ⟨0, _⟩ => show win0_2.index t 0 * 1024 + 1 * q.val = t.val % 16 * 1024 + q.val; rw [(idx_facts t).2.2.2.2.1]; omega
  | ⟨1, _⟩ => show win0_2.index t 1 * 1 + 1 * 0 = 0; rw [(idx_facts t).2.2.2.2.2.1]

/-- The squared norms and inner products of the blocks' rows are those of the arrays' rows. -/
theorem bsq_x (c : Dev nD) (t : Fin cfg0.N) (p : Fin 1024) :
    bsq (xblk m c t) p = Cert.Spec.sq (X m c) (rowOf t.val (lt256 t) p) :=
  Finset.sum_congr rfl fun d _ => by rw [xblk_apply]

theorem bsq_y (c : Dev nD) (t : Fin cfg0.N) (q : Fin 1024) :
    bsq (yblk m c t) q = Cert.Spec.sq (Y m c) (colOf t.val q) :=
  Finset.sum_congr rfl fun d _ => by rw [yblk_apply]

theorem bdot_xy (c : Dev nD) (t : Fin cfg0.N) (p q : Fin 1024) :
    bdot (xblk m c t) (yblk m c t) p q = Cert.Spec.dot (X m c) (Y m c) (rowOf t.val (lt256 t) p) (colOf t.val q) :=
  Finset.sum_congr rfl fun d _ => by rw [xblk_apply, yblk_apply]

/-- The tile's entry at `(p, q)` at point `t` is the cost of that global row and column. -/
theorem bcost_eq (c : Dev nD) (t : Fin cfg0.N) (p q : Fin 1024) :
    bcost (xblk m c t) (yblk m c t) (pblk m c t) p q
      = Cert.Spec.cost (X m c) (Y m c) (Psi m c) (rowOf t.val (lt256 t) p) (colOf t.val q) := by
  unfold bcost Cert.Spec.cost
  rw [bsq_x, bsq_y, bdot_xy, pblk_apply]

end Cert.KernelIdeal.Blocks

end
-- ==== Proof.Pieces.lean ====
/-
  What each control case of the kernel body leaves in its accumulator and in the output block, as one value.

  The body has three cases. At the first column block (case A) it stores +∞ into the accumulator, reads that back
  and stores the update over it: the accumulator ends at the update of the +∞ column. At a middle column block
  (case B) it stores the update of what the accumulator held. At the last column block (case C) it does the same
  and then copies the accumulator, read back, into the output block: both end at the update of what the accumulator
  held. "The update of `acc`" is the body's one arithmetic value, `k0_pay2` of the three input blocks and `acc`.
  Every load and store goes through the whole buffer, so a stored value read back is the value.
-/
import proofs.«164801_j15375982920139_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a load or store through a whole block. -/
theorem hz : (![0, 0] : Fin 2 → Nat) = fun _ => 0 := funext fun a => by fin_cases a <;> rfl

/-- Case A (the first column block): the accumulator ends at the update of the +∞ column. -/
theorem scratch_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 x1 : Vec F S1024x256 .f32) (x2 : Vec F S1024x1 .f32) :
    sout0_A_0 c i arg2 harg2 arg3 harg3 arg4 harg4 arg5 harg5 arg6 harg6 hc0 hc1 x0 x1 x2 = k0_pay2 x0 x1 x2 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread,
    View.ld_unit_zero (S := S1024x256) hz, View.ld_unit_zero (S := S1024x1) hz]

/-- Case B (a middle column block): the accumulator ends at the update of what it held. -/
theorem scratch_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 x1 : Vec F S1024x256 .f32) (x2 xs0 : Vec F S1024x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1024x1) hz]
  simp only [View.readAt_eq_ld, harg2.read_unread, harg3.read_unread, harg4.read_unread, harg6.read_unread,
    View.ld_unit_zero (S := S1024x256) hz, View.ld_unit_zero (S := S1024x1) hz]

/-- Case C (the last column block): the accumulator ends at the update of what it held, -/
theorem scratch_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 x1 : Vec F S1024x256 .f32) (x2 xs0 : Vec F S1024x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1024x1) hz]
  simp only [View.readAt_eq_ld, harg2.read_unread, harg3.read_unread, harg4.read_unread, harg6.read_unread,
    View.ld_unit_zero (S := S1024x256) hz, View.ld_unit_zero (S := S1024x1) hz]

/-- and the output block at the same value, copied from the accumulator. -/
theorem out_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 x1 : Vec F S1024x256 .f32) (x2 xs0 : Vec F S1024x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1024x1) hz, View.readCov_unit_zero (S := S1024x1) _ hz]
  simp only [View.readAt_eq_ld, harg2.read_unread, harg3.read_unread, harg4.read_unread, harg6.read_unread,
    View.ld_unit_zero (S := S1024x256) hz, View.ld_unit_zero (S := S1024x1) hz]

end Cert.KernelIdeal.Pieces

end
-- ==== Proof.Accum.lean ====
/-
  The accumulator across the grid, and the array the kernel writes.

  Point `t` of the 16 × 16 grid handles row block `t / 16` and column block `t % 16`, the column blocks of a row
  block in order. After point `t` the accumulator holds, in row `p`, the minimum of +∞ and of the costs of global row
  `(t / 16) · 1024 + p` over the columns below `(t % 16 + 1) · 1024`: at the first column block it is reset to +∞
  (the minimum over no column) and updated with the block's minimum; at every later one it is updated from what the
  point before left, which is the same row block's running minimum one column block earlier. By induction on `t`.
  At the last column block the output block receives the accumulator: the minimum over all 16384 columns. Those are
  the sixteen points that write back, row block by row block, and their blocks tile the `[16384, 1]` result array:
  it ends holding every row's minimum.
-/
import proofs.«164801_j15375982920139_1_alg».proof.Proof.Blocks
import proofs.«164801_j15375982920139_1_alg».proof.Proof.Pieces

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks
open Cert.Spec (cost rowMin column top)
open Cert.MinFold (upTo)

variable (m : (ℓ : Loc nD τ sig) → Buf (Elt Ideal) ℓ)

/-- The costs of the global row that point `n` handles in its local row `p`, as a function of the column. -/
abbrev costRow (c : Dev nD) (n : ℕ) (hn : n < 256) (p : Fin 1024) : Fin 16384 → EReal :=
  cost (X m c) (Y m c) (Psi m c) (rowOf n hn p)

/-- One update: from the running minimum below this point's column block to the one including it. -/
theorem step (c : Dev nD) (t : Fin cfg0.N) (prev : Vec Ideal S1024x1 .f32) (p : Fin 1024)
    (hprev : prev (ix2 p (0 : Fin 1)) = upTo (costRow m c t.val (lt256 t) p) top (t.val % 16 * 1024)) :
    k0_pay2 (F := Ideal) (xblk m c t) (yblk m c t) (pblk m c t) prev (ix2 p (0 : Fin 1))
      = upTo (costRow m c t.val (lt256 t) p) top ((t.val % 16 + 1) * 1024) := by
  refine (Payload.pay2_apply (xblk m c t) (yblk m c t) (pblk m c t) prev p).trans ?_
  rw [hprev, Cert.MinFold.upTo_step _ _ (t.val % 16) (Nat.mod_lt _ (by decide))]
  refine congrArg (min _) (Finset.fold_congr fun q _ => ?_)
  exact bcost_eq m c t p q

/-- The same row block one point earlier, when this point is not the row block's first. -/
theorem prev_row (t : Fin cfg0.N) (h0 : ¬t.val % 16 = 0) (p : Fin 1024) (h : t.val - 1 < 256) :
    rowOf (t.val - 1) h p = rowOf t.val (lt256 t) p :=
  Fin.ext (by show (t.val - 1) / 16 * 1024 + p.val = t.val / 16 * 1024 + p.val; omega)

/-- The accumulator after a point of the first column block. -/
theorem acc_A (c : Dev nD) (t : Fin cfg0.N) (h0 : t.val % 16 = 0) (h1 : ¬t.val % 16 = 15) (p : Fin 1024) :
    (outsAt0 m c t.val t.isLt).2 (ix2 p (0 : Fin 1)) = upTo (costRow m c t.val (lt256 t) p) top ((t.val % 16 + 1) * 1024) := by
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (yblk m c t) (pblk m c t)) (ix2 p (0 : Fin 1))).trans ?_
  refine step m c t (k0_pay1 (F := Ideal)) p ?_
  rw [Payload.pay1_apply, h0, Nat.zero_mul, Cert.MinFold.upTo_zero]

/-- The accumulator after a point of a middle column block, given it after the point before. -/
theorem acc_B (c : Dev nD) (t : Fin cfg0.N) (h0 : ¬t.val % 16 = 0) (h1 : ¬t.val % 16 = 15) (p : Fin 1024)
    (hlt : t.val - 1 < cfg0.N)
    (ih : (outsAt0 m c (t.val - 1) hlt).2 (ix2 p (0 : Fin 1))
      = upTo (costRow m c (t.val - 1) (lt_of_lt_of_eq hlt N256) p) top (((t.val - 1) % 16 + 1) * 1024)) :
    (outsAt0 m c t.val t.isLt).2 (ix2 p (0 : Fin 1)) = upTo (costRow m c t.val (lt256 t) p) top ((t.val % 16 + 1) * 1024) := by
  rw [outsAt0_B m c t h0 h1]
  dsimp only
  refine (congrFun (Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (yblk m c t) (pblk m c t) (outsAt0 m c (t.val - 1) hlt).2) (ix2 p (0 : Fin 1))).trans ?_
  refine step m c t _ p ?_
  rw [ih]
  show upTo (cost (X m c) (Y m c) (Psi m c) (rowOf (t.val - 1) _ p)) top _ = upTo (cost (X m c) (Y m c) (Psi m c) (rowOf t.val _ p)) top _
  rw [prev_row t h0 p, show (t.val - 1) % 16 + 1 = t.val % 16 from by omega]

/-- The accumulator after a point of the last column block, -/
theorem acc_C (c : Dev nD) (t : Fin cfg0.N) (h0 : ¬t.val % 16 = 0) (h1 : t.val % 16 = 15) (p : Fin 1024)
    (hlt : t.val - 1 < cfg0.N)
    (ih : (outsAt0 m c (t.val - 1) hlt).2 (ix2 p (0 : Fin 1))
      = upTo (costRow m c (t.val - 1) (lt_of_lt_of_eq hlt N256) p) top (((t.val - 1) % 16 + 1) * 1024)) :
    (outsAt0 m c t.val t.isLt).2 (ix2 p (0 : Fin 1)) = upTo (costRow m c t.val (lt256 t) p) top ((t.val % 16 + 1) * 1024) := by
  rw [outsAt0_C m c t h0 h1]
  dsimp only
  refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (yblk m c t) (pblk m c t) (outsAt0 m c (t.val - 1) hlt).2) (ix2 p (0 : Fin 1))).trans ?_
  refine step m c t _ p ?_
  rw [ih]
  show upTo (cost (X m c) (Y m c) (Psi m c) (rowOf (t.val - 1) _ p)) top _ = upTo (cost (X m c) (Y m c) (Psi m c) (rowOf t.val _ p)) top _
  rw [prev_row t h0 p, show (t.val - 1) % 16 + 1 = t.val % 16 from by omega]

/-- and the output block there: the same value. -/
theorem out_C (c : Dev nD) (t : Fin cfg0.N) (h0 : ¬t.val % 16 = 0) (h1 : t.val % 16 = 15) (p : Fin 1024)
    (hlt : t.val - 1 < cfg0.N)
    (ih : (outsAt0 m c (t.val - 1) hlt).2 (ix2 p (0 : Fin 1))
      = upTo (costRow m c (t.val - 1) (lt_of_lt_of_eq hlt N256) p) top (((t.val - 1) % 16 + 1) * 1024)) :
    (outsAt0 m c t.val t.isLt).1 (ix2 p (0 : Fin 1)) = upTo (costRow m c t.val (lt256 t) p) top ((t.val % 16 + 1) * 1024) := by
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (yblk m c t) (pblk m c t) (outsAt0 m c (t.val - 1) hlt).2) (ix2 p (0 : Fin 1))).trans ?_
  refine step m c t _ p ?_
  rw [ih]
  show upTo (cost (X m c) (Y m c) (Psi m c) (rowOf (t.val - 1) _ p)) top _ = upTo (cost (X m c) (Y m c) (Psi m c) (rowOf t.val _ p)) top _
  rw [prev_row t h0 p, show (t.val - 1) % 16 + 1 = t.val % 16 from by omega]

/-- THE INVARIANT: after point `n` the accumulator's row `p` is the running minimum of its global row over the
    column blocks up to and including point `n`'s. -/
theorem acc_inv (c : Dev nD) : ∀ (n : ℕ) (hn : n < cfg0.N) (p : Fin 1024),
    (outsAt0 m c n hn).2 (ix2 p (0 : Fin 1)) = upTo (costRow m c n (lt_of_lt_of_eq hn N256) p) top ((n % 16 + 1) * 1024)
  | 0, hn, p => acc_A m c ⟨0, hn⟩ rfl (by show ¬(0 % 16 = 15); decide) p
  | n + 1, hn, p => by
    by_cases h0 : (n + 1) % 16 = 0
    · exact acc_A m c ⟨n + 1, hn⟩ h0 (by show ¬(n + 1) % 16 = 15; omega) p
    · by_cases h1 : (n + 1) % 16 = 15
      · exact acc_C m c ⟨n + 1, hn⟩ h0 h1 p (Nat.lt_of_succ_lt hn) (acc_inv c n (Nat.lt_of_succ_lt hn) p)
      · exact acc_B m c ⟨n + 1, hn⟩ h0 h1 p (Nat.lt_of_succ_lt hn) (acc_inv c n (Nat.lt_of_succ_lt hn) p)

/-- At a point of the last column block the output block's row `p` is the minimum over all 16384 columns. -/
theorem out_last (c : Dev nD) (t : Fin cfg0.N) (h1 : t.val % 16 = 15) (p : Fin 1024) :
    (outsAt0 m c t.val t.isLt).1 (ix2 p (0 : Fin 1)) = rowMin (X m c) (Y m c) (Psi m c) (rowOf t.val (lt256 t) p) := by
  have h0 : ¬t.val % 16 = 0 := by omega
  have hlt : t.val - 1 < cfg0.N := Nat.lt_of_le_of_lt (Nat.sub_le _ _) t.isLt
  rw [out_C m c t h0 h1 p hlt (acc_inv m c (t.val - 1) hlt p), h1, Cert.Spec.rowMin_eq_upTo]

/-- A block of the result array read at an index of the block is the array at the index embedded, -/
theorem read_col (t : Fin cfg0.N) (G : S16384x1.Idx → EReal) (j : ((cfg0.win 3).xblock (cfg0.grid.coords t)).Idx) :
    ((cfg0.win 3).blk t).view.read (Elt Ideal) G j = G (((cfg0.win 3).blk t).view.emb j) := rfl

/-- whose row is the block's first row plus the row inside the block. -/
theorem emb_row (t : Fin cfg0.N) (j : ((cfg0.win 3).xblock (cfg0.grid.coords t)).Idx) :
    ((((cfg0.win 3).blk t).view.emb j) 0).val = win0_3.index t 0 * 1024 + 1 * (j 0).val := rfl

/-- What a writing point writes back is its block of the column of row minima. -/
theorem flushed_eq (c : Dev nD) (t : Fin cfg0.N) (hf : (cfg0.win 3).flush t = true) :
    (dats m 0 c).flushed 3 t = ((cfg0.win 3).blk t).view.read (Elt Ideal) (column (X m c) (Y m c) (Psi m c)) := by
  have h15 : t.val % 16 = 15 := (flush0_3 t).mp hf
  show (cfg0.win 3).cut (grid0.coords t) ((dats m 0 c).after 3 t) = _
  rw [after0_3]
  funext j
  have hp : (j 0).val < 1024 := Nat.lt_of_lt_of_le (j 0).isLt ((cfg0.win 3).xsize_le (grid0.coords t) 0)
  have hu : (j 1).val < 1 := Nat.lt_of_lt_of_le (j 1).isLt ((cfg0.win 3).xsize_le (grid0.coords t) 1)
  have e : (cfg0.win 3).xinj (grid0.coords t) j = ix2 (⟨(j 0).val, hp⟩ : Fin 1024) (0 : Fin 1) :=
    funext fun a => Fin.ext (by match a with | ⟨0, _⟩ => rfl | ⟨1, _⟩ => show (j 1).val = 0; omega)
  refine (congrArg (outsAt0 m c t.val t.isLt).1 e).trans ?_
  rw [out_last m c t h15 ⟨(j 0).val, hp⟩]
  refine Eq.trans ?_ (read_col t (column (X m c) (Y m c) (Psi m c)) j).symm
  unfold column
  refine congrArg (rowMin (X m c) (Y m c) (Psi m c)) (Fin.ext ?_)
  refine Eq.trans ?_ (emb_row t j).symm
  show t.val / 16 * 1024 + (j 0).val = win0_3.index t 0 * 1024 + 1 * (j 0).val
  rw [(idx_facts t).2.2.2.2.2.2.1]; omega

/-- An index of the result array is in point `t`'s block iff each coordinate is in the block's range. -/
theorem mem_blk (t : Fin cfg0.N) (i : S16384x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v1).slice (win0_3.rect t)).set ↔ _
  rw [View.set_slice_whole, Rect.mem_set_unit]
  exact Iff.rfl

/-- THE RESULT ARRAY after the run: the column of row minima (row `r` is written by the last point of row block
    `r / 1024`). -/
theorem final_out (c : Dev nD) : (dats m 0 c).arrAt 3 cfg0.N = column (X m c) (Y m c) (Psi m c) :=
  (dats m 0 c).arrAt_eq_of_cover 3 (column (X m c) (Y m c) (Psi m c)) (flushed_eq m c) fun i => by
    have hi0 : (i 0).val < 16384 := (i 0).isLt
    have hi1 : (i 1).val < 1 := (i 1).isLt
    let t : Fin cfg0.N := ⟨(i 0).val / 1024 * 16 + 15, by rw [N256]; omega⟩
    have ht : t.val = (i 0).val / 1024 * 16 + 15 := rfl
    refine ⟨t, (flush0_3 t).mpr (by rw [ht]; omega), ?_⟩
    rw [mem_blk]
    intro a
    match a with
    | ⟨0, _⟩ =>
      show win0_3.index t 0 * 1024 ≤ (i 0).val ∧ (i 0).val < win0_3.index t 0 * 1024 + 1024
      rw [(idx_facts t).2.2.2.2.2.2.1, ht]; omega
    | ⟨1, _⟩ =>
      show win0_3.index t 1 * 1 ≤ (i 1).val ∧ (i 1).val < win0_3.index t 1 * 1 + 1
      rw [(idx_facts t).2.2.2.2.2.2.2]; omega

end Cert.KernelIdeal.Accum

end
-- ==== Proof.KernelRun.lean ====
/-
  The idealized kernel's run, read: its two results as functions of the argument arrays.

  After the kernel's region the host sums the `[16384, 1]` result array from zero and divides by 16384.0, and does the
  same with the third argument. The result array holds the column of row minima, and a sum over a `[16384, 1]`
  array is the sum over its 16384 rows, so the first result is the specification's mean of the row minima; the second
  is the host's own term of the third argument, which no operation before it has written.
-/
import proofs.«164801_j15375982920139_1_alg».proof.Proof.Accum
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Blocks
open Cert.Spec (column rowMin meanMin zero count)

variable (m : (ℓ : Loc nD τ sig) → Buf (Elt Ideal) ℓ) (ρ : Dev nD → PrngReg)

/-- The first result: the mean of the row minima, at the one index of a rank-0 array. -/
abbrev res0 (c : Dev nD) : Buf (Elt Ideal) ((c.tc : Thread nD τ).loc main_v3) :=
  fun _ => meanMin (X m c) (Y m c) (Psi m c)

/-- The second result: the host's mean of the third argument. -/
abbrev res1 (c : Dev nD) : Buf (Elt Ideal) ((c.tc : Thread nD τ).loc main_v5) :=
  (Host.divf (Host.reduceAdd (F := Ideal) (φ := .f32) (Psi m c) (constant (F := Ideal) S_ .f32 0x00000000#32) reducesTo_S16384_S_d0 h_S_)
    (constant (F := Ideal) S_ .f32 0x46800000#32) : FVec Ideal S_ .f32)

/-- The sum of a `[16384, 1]` column from zero, divided by 16384.0, over the column of row minima. -/
theorem mean_column (X Y : Cert.Spec.Mat) (Psi : Cert.Spec.Row) :
    Host.divf (Host.reduceAdd (F := Ideal) (φ := .f32) (column X Y Psi) (constant S_ .f32 0x00000000#32) reducesTo_S16384x1_S_d0_1 h_S_)
      (constant S_ .f32 0x46800000#32) = fun _ => meanMin X Y Psi := by
  funext i
  show Ideal.div (Ideal.hostReduceAdd reducesTo_S16384x1_S_d0_1 (column X Y Psi) zero i) count = _
  rw [Ideal.hostReduceAdd_total reducesTo_S16384x1_S_d0_1 (fun b => b.elim0), sum_idx2]
  unfold meanMin
  refine congrArg (fun s => Ideal.div (zero + s) count) (Finset.sum_congr rfl fun r _ => ?_)
  rw [Fin.sum_univ_one]
  rfl

/-- The host's lines after the region leave the first result at the mean of the row minima. -/
theorem tail_v3 (c : Dev nD) : Pipeline.afterTail₀ cfgs (dats m) 0 (V0 m) [hostOps1] c main_v3 = res0 m c := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = column (X m c) (Y m c) (Psi m c) :=
    (Pipeline.withArrays_arr spec0 launch0.win.arr_inj c _ _ 3).trans (Accum.final_out m c)
  rw [hw]
  exact mean_column _ _ _

/-- They leave the second result at the mean of the third argument as launched. -/
theorem tail_v5 (c : Dev nD) : Pipeline.afterTail₀ cfgs (dats m) 0 (V0 m) [hostOps1] c main_v5 = res1 m c := by
  unfold Pipeline.afterTail₀
  show StableHlo.after hostOps1 _ (Proc.devRef .tc main_v5) = _
  after_results
  rw [Pipeline.withArrays_of_ne _ c (V0 m c) _ main_arg2 (by exact (by decide : ∀ w, Pipeline.arrRef spec0 w ≠ main_arg2))]
  exact congrArg (fun A : FVec Ideal S16384 .f32 =>
    (Host.divf (Host.reduceAdd (F := Ideal) (φ := .f32) A (constant (F := Ideal) S_ .f32 0x00000000#32) reducesTo_S16384_S_d0 h_S_)
      (constant (F := Ideal) S_ .f32 0x46800000#32) : FVec Ideal S_ .f32)) (V_main_arg2 m c)

/-- THE RUN: every weakly fair execution of the idealized kernel's @main terminates with the two results at the
    specification's terms and the arguments unchanged. -/
theorem run : θ_run defs (onTc (τ := τ) (main (F := Ideal))) ⟨m, fun _ => 0, ρ⟩ fun r => ∀ c : Dev nD,
      r.2.mem ((c.tc : Thread nD τ).loc main_v3) = res0 m c
      ∧ r.2.mem ((c.tc : Thread nD τ).loc main_v5) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_v3 m c),
      ((h c).2 main_v5 (Pipeline.mem_restRefs_of main_v5 (by decide) (by decide))).trans (tail_v5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The reference, stage by stage, is the specification.

  jnp's program computes the row sums of squares of both arrays, broadcasts them over the 16384 × 16384 table, subtracts
  twice the matrix product of the first array with the transposed second one and then the third array along the
  columns, takes each row's minimum from +∞, sums the minima from zero and divides by 16384.0. Read at an index, every
  stage is the specification's term of the same name: a row sum of squares is `sq`, an entry of the product is `dot`
  (the transpose only swaps the second array's coordinates), an entry of the table is `cost`, a row's minimum is
  `rowMin` (a minimum over one axis is a fold over that axis's coordinates, in any order), the result is `meanMin`.
-/
import proofs.«164801_j15375982920139_1_alg».proof.Proof.Gen.ReferenceIdeal.Read
import proofs.«164801_j15375982920139_1_alg».proof.Proof.Spec
import Idealize.ShloMosaic.PureOps.Ideal.Laws
import Idealize.ShloMosaic.Lib.ValueIdx
import Idealize.ShloMosaic.Lib.ValueIdxRank1

noncomputable section

namespace Cert.ReferenceIdeal.RefValue

open Cert.ReferenceIdeal Cert.ReferenceIdeal.Gen Cert.ReferenceIdeal.Read Idealize.ShloMosaic Idealize.ShloMosaic.ValueIdx
open Cert.Spec (sq dot cost rowMin meanMin two top zero count)

variable (x0 x1 : Cert.Spec.Mat) (x2 : Cert.Spec.Row)

/-- The first array's row sums of squares. -/
theorem v1_at (r : Fin 16384) : val_main_v1 (F := Ideal) x0 (ix1 r) = sq x0 r := by
  rw [val_main_v1_apply, val_main_cst_apply]
  show Ideal.ofBits .f32 0x00000000#32 + _ = _
  rw [Ideal.ofBits_zero_f32, zero_add]
  refine Finset.sum_congr rfl fun k _ => ?_
  rw [val_main_v0_apply, show idx_main_v1 (ix1 r) k = ix2 r k from
    funext fun a => Fin.ext (by match a with | ⟨0, _⟩ => rfl | ⟨1, _⟩ => rfl)]
  rfl

/-- The second array's row sums of squares. -/
theorem v4_at (c : Fin 16384) : val_main_v4 (F := Ideal) x1 (ix1 c) = sq x1 c := by
  rw [val_main_v4_apply, val_main_cst_0_apply]
  show Ideal.ofBits .f32 0x00000000#32 + _ = _
  rw [Ideal.ofBits_zero_f32, zero_add]
  refine Finset.sum_congr rfl fun k _ => ?_
  rw [val_main_v3_apply, show idx_main_v4 (ix1 c) k = ix2 c k from
    funext fun a => Fin.ext (by match a with | ⟨0, _⟩ => rfl | ⟨1, _⟩ => rfl)]
  rfl

/-- An entry of the product with the transposed second array: the inner product of the two rows. -/
theorem v10_at (r c : Fin 16384) : val_main_v10 (F := Ideal) x0 x1 (ix2 r c) = dot x0 x1 r c := by
  rw [val_main_v10_apply]
  refine Finset.sum_congr rfl fun k _ => ?_
  rw [val_main_v9_apply,
    show lidx_main_v10 (ix2 r c) k = ix2 r k from funext fun a => Fin.ext (by match a with | ⟨0, _⟩ => rfl | ⟨1, _⟩ => rfl),
    show idx_main_v9 (ridx_main_v10 (ix2 r c) k) = ix2 c k from funext fun a => Fin.ext (by match a with | ⟨0, _⟩ => rfl | ⟨1, _⟩ => rfl)]

/-- An entry of the table the reference reduces: the cost of that row and column. -/
theorem v16_at (r c : Fin 16384) : val_main_v16 (F := Ideal) x0 x1 x2 (ix2 r c) = cost x0 x1 x2 r c := by
  rw [val_main_v16_apply, val_main_v13_apply, val_main_v8_apply, val_main_v6_apply, val_main_v2_apply,
    val_main_v7_apply, val_main_v5_apply, val_main_v12_apply, val_main_v11_apply, val_main_cst_1_apply,
    val_main_v15_apply, val_main_v14_apply, v10_at,
    show idx_main_v2 (idx_main_v6 (ix2 r c)) = ix1 r from funext fun a => Fin.ext (by match a with | ⟨0, _⟩ => rfl),
    show idx_main_v5 (idx_main_v7 (ix2 r c)) = ix1 c from funext fun a => Fin.ext (by match a with | ⟨0, _⟩ => rfl),
    show idx_main_v14 (idx_main_v15 (ix2 r c)) = ix1 c from funext fun a => Fin.ext (by match a with | ⟨0, _⟩ => rfl),
    v1_at, v4_at]
  rfl

/-- A row's minimum over the table. -/
theorem v17_at (r : Fin 16384) : val_main_v17 (F := Ideal) x0 x1 x2 (ix1 r) = rowMin x0 x1 x2 r := by
  unfold val_main_v17
  have hR : S16384x16384.Reduces [1] S16384 := by decide
  refine (Host.reduce_eq_fold_single (FloatOps.minimumf (F := Ideal) (φ := .f32)) (val_main_v16 (F := Ideal) x0 x1 x2)
    (val_main_cst_2 (F := Ideal)) reducesTo_S16384x16384_S16384_d1 hR h_S_ (ix1 r)).trans ?_
  show Finset.fold min top _ _ = _
  unfold rowMin
  refine Finset.fold_congr fun c _ => ?_
  refine (congrArg (val_main_v16 (F := Ideal) x0 x1 x2) (show _ = ix2 r c from
    funext fun a => Fin.ext (by match a with | ⟨0, _⟩ => rfl | ⟨1, _⟩ => rfl))).trans (v16_at x0 x1 x2 r c)

/-- The reference's first result: the mean of the row minima. -/
theorem v19_at (i : S_.Idx) : val_main_v19 (F := Ideal) x0 x1 x2 i = meanMin x0 x1 x2 := by
  rw [val_main_v19_apply, val_main_v18_apply, val_main_cst_3_apply, val_main_cst_4_apply,
    ← Equiv.sum_comp (idxEquiv1 (n := 16384)).symm]
  show Ideal.div (zero + ∑ r : Fin 16384, val_main_v17 (F := Ideal) x0 x1 x2 (ix1 r)) count = _
  unfold meanMin
  refine congrArg (fun s => Ideal.div (zero + s) count) (Finset.sum_congr rfl fun r _ => ?_)
  exact v17_at x0 x1 x2 r

end Cert.ReferenceIdeal.RefValue

end
-- ==== Proof.lean ====
/-
  Semidual retrieval: the mean over the rows `i` of `min_j (|x_i|² + |y_j|² − 2⟨x_i, y_j⟩ − psi_j)`, and the mean of `psi`.

  The kernel tiles the 16384 × 16384 table of costs into 16 × 16 tiles of 1024 × 1024 and keeps, per row block, a
  running row minimum across the column blocks (reset to +∞ at the first, written out at the last); the host then
  averages the 16384 minima. The reference builds the whole table and takes each row's minimum at once. Over the
  extended reals both are the same function of the arguments: every entry of the table is the same expression on both
  sides (a narrowing to bf16 is the identity there, and the kernel's matrix product into a zero tile is the same sum
  of products as the host's), a minimum over 16384 columns is the minimum of the sixteen block minima whatever the
  values (`min` is associative, commutative and idempotent, with no appeal to finiteness), and the sum over a
  `[16384, 1]` column is the sum over its rows. The second result is computed by the same host lines in both.

  The three frames are the generated ones (the reference's is its generated run with the results dropped); the
  idealization rewrote nothing.
-/
import proofs.«164801_j15375982920139_1_alg».proof.Defs
import proofs.«164801_j15375982920139_1_alg».proof.Proof.Gen.Kernel
import proofs.«164801_j15375982920139_1_alg».proof.Proof.Gen.Kernel.Frame
import proofs.«164801_j15375982920139_1_alg».proof.Proof.Gen.KernelIdeal
import proofs.«164801_j15375982920139_1_alg».proof.Proof.Gen.KernelIdeal.Frame
import proofs.«164801_j15375982920139_1_alg».proof.Proof.Gen.ReferenceIdeal
import proofs.«164801_j15375982920139_1_alg».proof.Proof.Gen.ReferenceIdeal.Run
import proofs.«164801_j15375982920139_1_alg».proof.Proof.Gen.ReferenceIdeal.Read
import proofs.«164801_j15375982920139_1_alg».proof.Proof.Gen.Pre_finite_inputs
import proofs.«164801_j15375982920139_1_alg».proof.Proof.KernelRun
import proofs.«164801_j15375982920139_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From arguments that agree, the kernel's results end at the specification's two means and the reference's at its
    own stages, which read as the same means. -/
theorem algebraic : Cert.algebraic_KernelIdeal_ReferenceIdeal := by
  intro m ρ m' ρ' _ hagree
  refine ⟨fun c => Cert.KernelIdeal.KernelRun.res0 m c, fun c => Cert.KernelIdeal.KernelRun.res1 m c,
    Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v19_eq, (hagree c).1, (hagree c).2.1, (hagree c).2.2]
    funext i
    exact Cert.ReferenceIdeal.RefValue.v19_at _ _ _ i
  · rw [(hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
